-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 60
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S100000_S1700000x1_S1700000_n_0_0_1_wf : ScatterDims.WF S100000 S1700000x1 S1700000 [] [0] [0] 1
  dot_S2000x128_S128x128_S2000x128_1_0_0_1_n_n_wf : DotDims.WF S2000x128 S128x128 S2000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The layer's mathematics, entry by entry, over the extended reals.

  * `xw x w`: the matrix product of the node features `x : [100000, 128]` with the weights `w : [128, 128]`;
    entry `(r, q)` is the sum over `k` of `x (r, k) · w (k, q)`.
  * A row of 128 numbers `h` is normalised by its mean `rowMean h = (Σ h) / 128` and its variance
    `rowVar h = (Σ (h − mean)²) / 128`, scaled by `g`, shifted by `be` and rectified:
    `lnRelu h g be q = max (((h q − mean) · rsqrt (var + ε)) · g q + be q) 0`.
  * The row that is normalised at node `r` is the aggregated messages plus the bias plus the node's own features:
    `preRow agg x b r k = (agg (r, k) + b k) + x (r, k)`.
  * `layer agg x b g be` is the whole result: entry `(r, q)` is `lnRelu (preRow agg x b r) g be q`.

  The three literals (the row length 128, the variance floor ε, the rectifier's zero) are kept as the words the two
  programs print; both programs print the same words, so none is ever evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Node features `[100000, 128]`, weights `[128, 128]`. -/
abbrev SN : Shape := ⟨2, ![100000, 128]⟩
abbrev SW : Shape := ⟨2, ![128, 128]⟩

/-- Entry `(r, q)` of the product `x · w`. -/
def xwAt (x : SN.Idx → EReal) (w : SW.Idx → EReal) (r : Fin 100000) (q : Fin 128) : EReal :=
  ∑ k : Fin 128, x (ix2 r k) * w (ix2 k q)

/-- The product `x · w` as an array. -/
def xw (x : SN.Idx → EReal) (w : SW.Idx → EReal) : SN.Idx → EReal := fun i => xwAt x w (i 0) (i 1)

theorem xw_ix2 (x : SN.Idx → EReal) (w : SW.Idx → EReal) (r : Fin 100000) (q : Fin 128) :
    xw x w (ix2 r q) = xwAt x w r q := rfl

/-- The row length, the variance floor and the rectifier's zero, as the words both programs print. -/
abbrev c128 : EReal := Ideal.ofBits .f32 0x43000000#32
abbrev ceps : EReal := Ideal.ofBits .f32 0x3727C5AC#32
abbrev czero : EReal := Ideal.ofBits .f32 0x00000000#32

/-- The mean of a row of 128 numbers. -/
def rowMean (h : Fin 128 → EReal) : EReal := Ideal.div (∑ k : Fin 128, h k) c128

/-- The variance of a row of 128 numbers about its mean. -/
def rowVar (h : Fin 128 → EReal) : EReal :=
  Ideal.div (∑ k : Fin 128, (h k - rowMean h) * (h k - rowMean h)) c128

/-- The row normalised, scaled, shifted and rectified, at column `q`. -/
def lnRelu (h g be : Fin 128 → EReal) (q : Fin 128) : EReal :=
  max (((h q - rowMean h) * Ideal.rsqrt (rowVar h + ceps)) * g q + be q) czero

/-- The row that is normalised at node `r`: aggregated messages, plus the bias, plus the node's own features. -/
def preRow (agg x : SN.Idx → EReal) (b : Fin 128 → EReal) (r : Fin 100000) : Fin 128 → EReal :=
  fun k => (agg (ix2 r k) + b k) + x (ix2 r k)

/-- The layer's result: every node's row normalised and rectified. -/
def layer (agg x : SN.Idx → EReal) (b g be : Fin 128 → EReal) : SN.Idx → EReal :=
  fun i => lnRelu (preRow agg x b (i 0)) g be (i 1)

theorem layer_ix2 (agg x : SN.Idx → EReal) (b g be : Fin 128 → EReal) (r : Fin 100000) (q : Fin 128) :
    layer agg x b g be (ix2 r q) = lnRelu (preRow agg x b r) g be q := rfl

end Cert.Spec

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.MatmulRegion.lean ====
/-
  The first region: the product of the node features with the weights, tile by tile.

  Grid point `t` (of 50) loads rows `2000·t … 2000·t + 1999` of the features and the whole weight matrix, and stores
  their product — both operands narrowed to bf16 first, which changes nothing over the extended reals — into the same
  rows of the result. Entry `(p, q)` of a tile's product is the sum over `k` of `x (2000·t + p, k) · w (k, q)`, which
  is entry `(2000·t + p, q)` of the whole product `xw x w`. The 50 tiles cover all 100000 rows, so after the region
  the result array is `xw x w` of the arrays the region found.
-/
import proofs.«128489_j40931038331316_1_alg».proof.Proof.Gen.KernelIdeal.Frame
import proofs.«128489_j40931038331316_1_alg».proof.Proof.Spec
import proofs.«128489_j40931038331316_1_alg».proof.Proof.LibRowDims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed contraction — left axis 1 against right axis 0, no batch axes — is the plain matrix product's. -/
theorem dot_plain : dot_S2000x128_S128x128_S2000x128_1_0_0_1_n_n = DotDims.plain 2000 128 128 := rfl

/-- A tile's payload at `(p, q)`: the sum over `k` of the loaded features at `(p, k)` times the weights at `(k, q)`. -/
theorem tile_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  rw [dot_plain]
  exact RowDims.matmul_plain_zero_apply none _ _ p q

/-- The index maps over the grid: the features' and the result's tiles sit at block row `t`, block column 0; the
    weights' one block at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product of the arrays the region found. -/
theorem flushed_eq (c : Dev nD) (t : Fin cfg0.N) :
    (dat0 V c).flushed 2 t
      = ((cfg0.win 2).blk t).view.read (Elt Ideal) (Cert.Spec.xw (V c main_arg0) (V c main_arg2)) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S128x128) origin_zero]
  obtain ⟨e0, e1, e2, e3, e4, e5⟩ := index_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
      = Cert.Spec.xw (V c main_arg0) (V c main_arg2) (((cfg0.win 2).blk t).view.emb (ix2 p q))
  refine (tile_apply (iblk0 V c 0 t) (iblk0 V c 1 t) p q).trans ?_
  unfold Cert.Spec.xw Cert.Spec.xwAt
  refine Finset.sum_congr rfl fun k _ => ?_
  refine congrArg₂ (· * ·) ?_ ?_
  · -- the features' tile at (p, k) is the array at (2000·t + p, k)
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · -- the weights' one block at (k, q) is the array at (k, q)
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result array lies in tile `t` exactly when each coordinate lies in the tile's range. -/
theorem mem_tile (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v12).slice (win0_2.rect t)).set ↔ _
  rw [View.set_slice_whole, Rect.mem_set_unit]
  exact Iff.rfl

/-- Row `r` of the result lies in tile `r / 2000`: the 50 tiles cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨e0, e1, e2, e3, e4, e5⟩ := index_facts t
  refine ⟨t, flush0_2 t, ?_⟩
  rw [mem_tile]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the region the result array is the whole product of the arrays the region found. -/
theorem array_eq (c : Dev nD) :
    (dat0 V c).arrAt 2 cfg0.N = Cert.Spec.xw (V c main_arg0) (V c main_arg2) :=
  (dat0 V c).arrAt_eq_of_cover 2 _ (fun t _ => flushed_eq V c t) covered

end Cert.KernelIdeal.Region0

end
-- ==== Proof.LayerNormPayload.lean ====
/-
  The second region's arithmetic at one entry.

  The body adds the bias row and the node's own features to the aggregated messages, `h = (agg + b) + x`, and
  normalises each of its 2000 rows: the row's mean is its lane sum over 128, the centred row is squared and summed for
  the variance, and the entry is `max (((h − mean) · rsqrt (var + ε)) · g + be) 0`. Read at entry `(p, q)` of the tile
  every operation is pointwise except four layout steps — a `[1, 128]` row spread over the rows, a `[2000, 1]` column
  spread over the columns, a `[2000]` vector seen as a column, and the lane sum of a row — so the entry depends on row
  `p` of the two tiles and on the three parameter rows only, and is `lnRelu` of that row at column `q`.
-/
import proofs.«128489_j40931038331316_1_alg».proof.Proof.Gen.KernelIdeal.Skeleton
import proofs.«128489_j40931038331316_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.ValueIdx

/-- A `[1, 128]` row spread over 2000 rows reads, at `(p, q)`, the row at `q`. -/
theorem spread_row (x : FVec Ideal S1x128 .f32) (p : Fin 2000) (q : Fin 128) :
    broadcastTo S2000x128 x broadcasts_S1x128_S2000x128 (ix2 p q) = x (ix2 (0 : Fin 1) q) :=
  broadcastTo_1b_ab_apply x broadcasts_S1x128_S2000x128 p q

/-- A `[2000, 1]` column spread over 128 columns reads, at `(p, q)`, the column at `p`. -/
theorem spread_col (x : FVec Ideal S2000x1 .f32) (p : Fin 2000) (q : Fin 128) :
    broadcastTo S2000x128 x broadcasts_S2000x1_S2000x128 (ix2 p q) = x (ix2 p (0 : Fin 1)) := by
  refine broadcastTo_apply x broadcasts_S2000x1_S2000x128 (ix2 p q) (ix2 p (0 : Fin 1)) fun ax => ?_
  match ax with
  | ⟨0, _⟩ => rfl
  | ⟨1, _⟩ => rfl

/-- A `[2000]` vector seen as a `[2000, 1]` column reads, at `(p, 0)`, the vector at `p`. -/
theorem as_col (x : FVec Ideal S2000 .f32) (p : Fin 2000) :
    shapeCast S2000x1 x shapeCasts_S2000_S2000x1 (ix2 p (0 : Fin 1)) = x (ix1 p) := by
  refine shapeCast_apply x shapeCasts_S2000_S2000x1 (ix2 p (0 : Fin 1)) (ix1 p) ?_
  rw [Shape.rowMajor_val_one, Shape.rowMajor_val_two]
  show p.val = p.val * 1 + 0
  omega

/-- The lane sum of a `[2000, 128]` tile reads, at row `p`, the sum of that row. -/
theorem row_sum (v : FVec Ideal S2000x128 .f32) (hφ : FKind.Formats .f32)
    (hacc : (0x00000000#32 : BitVec FTy.f32.bits) = FKind.add.neutral .f32 hφ) (p : Fin 2000) :
    multiReduction .add [1] S2000 v 0x00000000#32 reduces_S2000x128_S2000 hφ hacc (ix1 p)
      = ∑ k : Fin 128, v (ix2 p k) := by
  refine (Ideal.multiReduction_add_single v 0x00000000#32 reduces_S2000x128_S2000 hφ hacc (ix1 p)).trans ?_
  refine Finset.sum_congr rfl fun k _ => ?_
  exact congrArg v (funext fun a => Fin.ext (by match a with | ⟨0, _⟩ => rfl | ⟨1, _⟩ => rfl))

theorem rsqrt_at {s : Shape} (v : FVec Ideal s .f32) (i : s.Idx) : rsqrt v i = Ideal.rsqrt (v i) := rfl

theorem pay_apply (v0 : FVec Ideal S2000x128 .f32) (v2 : FVec Ideal S1x128 .f32) (v6 : FVec Ideal S2000x128 .f32)
    (v26 v30 : FVec Ideal S1x128 .f32) (p : Fin 2000) (q : Fin 128) :
    k1_pay1 (F := Ideal) v0 v2 v6 v26 v30 (ix2 p q)
      = Cert.Spec.lnRelu (fun k => (v0 (ix2 p k) + v2 (ix2 0 k)) + v6 (ix2 p k))
          (fun k => v26 (ix2 0 k)) (fun k => v30 (ix2 0 k)) q := by
  unfold k1_pay1
  -- every pointwise and layout step read at the entry; what is left are the lane sums of row `p`
  simp only [maximumf_apply, addf_apply, mulf_apply, subf_apply, divf_apply, broadcast_apply, rsqrt_at,
    spread_row, spread_col, as_col, shapeCast_self]
  erw [row_sum, row_sum]
  simp only [addf_apply, mulf_apply, subf_apply, divf_apply, broadcast_apply, spread_row, spread_col, as_col]
  erw [row_sum]
  simp only [addf_apply, spread_row]
  -- the entry is now the specification's formula of row `p`, literal for literal
  rfl

end Cert.KernelIdeal.Region1

end
-- ==== Proof.LayerNormRegion.lean ====
/-
  The second region: residual, normalisation and rectifier, tile by tile.

  Grid point `t` (of 50) loads rows `2000·t … 2000·t + 1999` of the aggregated messages and of the node features, and
  the three parameter rows (bias, scale, shift: one `[1, 128]` block each, the same at every point), and stores the
  normalised tile into the same rows of the result. By the entry formula of a tile, entry `(p, q)` depends on row `p` of
  the two tiles only, which is row `2000·t + p` of the two arrays; so the tile written back is tile `t` of
  `layer agg x b g be` of the arrays the region found. The 50 tiles cover all 100000 rows.
-/
import proofs.«128489_j40931038331316_1_alg».proof.Proof.Gen.KernelIdeal.Frame
import proofs.«128489_j40931038331316_1_alg».proof.Proof.Spec
import proofs.«128489_j40931038331316_1_alg».proof.Proof.LayerNormPayload
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The index maps over the grid: the two big inputs' and the result's tiles sit at block row `t`, block column 0;
    each parameter row's one block at the origin. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The five tiles a point loads, each at its literal type: rows of the aggregated messages and of the features, and
    the bias, scale and shift rows. -/
abbrev aggTile (c : Dev nD) (t : Fin cfg1.N) : FVec Ideal S2000x128 .f32 := iblk1 V c 0 t
abbrev featTile (c : Dev nD) (t : Fin cfg1.N) : FVec Ideal S2000x128 .f32 := iblk1 V c 1 t
abbrev biasRow (c : Dev nD) (t : Fin cfg1.N) : FVec Ideal S1x128 .f32 := iblk1 V c 2 t
abbrev scaleRow (c : Dev nD) (t : Fin cfg1.N) : FVec Ideal S1x128 .f32 := iblk1 V c 3 t
abbrev shiftRow (c : Dev nD) (t : Fin cfg1.N) : FVec Ideal S1x128 .f32 := iblk1 V c 4 t

/-- What point `t` writes back is tile `t` of the whole layer of the arrays the region found. -/
theorem flushed_eq (c : Dev nD) (t : Fin cfg1.N) :
    (dat1 V c).flushed 5 t
      = ((cfg1.win 5).blk t).view.read (Elt Ideal)
          (Cert.Spec.layer (V c main_v40) (V c main_arg0) (fun k => V c main_v41 (ix2 (0 : Fin 1) k))
            (fun k => V c main_v42 (ix2 (0 : Fin 1) k)) (fun k => V c main_v43 (ix2 (0 : Fin 1) k))) := by
  show (cfg1.win 5).cut (grid1.coords t) ((dat1 V c).after 5 t) = _
  rw [after1_5]
  unfold out1_5
  rw [View.canon_unit_zero origin_zero]
  simp only [View.ld_unit_zero (S := S2000x128) origin_zero, View.ld_unit_zero (S := S1x128) origin_zero]
  obtain ⟨a0, a1, x0, x1, b0, b1, g0, g1, s0, s1, o0, o1⟩ := index_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
      = Cert.Spec.layer (V c main_v40) (V c main_arg0) (fun k => V c main_v41 (ix2 (0 : Fin 1) k))
          (fun k => V c main_v42 (ix2 (0 : Fin 1) k)) (fun k => V c main_v43 (ix2 (0 : Fin 1) k))
          (((cfg1.win 5).blk t).view.emb (ix2 p q))
  refine (pay_apply (aggTile V c t) (biasRow V c t) (featTile V c t) (scaleRow V c t) (shiftRow V c t) p q).trans ?_
  unfold Cert.Spec.layer
  -- row p of the two tiles is row 2000·t + p of the two arrays; the bias block is the bias row
  have hrow : (fun k : Fin 128 => (aggTile V c t (ix2 p k) + biasRow V c t (ix2 (0 : Fin 1) k)) + featTile V c t (ix2 p k))
      = Cert.Spec.preRow (V c main_v40) (V c main_arg0) (fun k => V c main_v41 (ix2 (0 : Fin 1) k))
          ((((cfg1.win 5).blk t).view.emb (ix2 p q)) 0) := by
    funext k
    unfold Cert.Spec.preRow
    refine congrArg₂ (· + ·) (congrArg₂ (· + ·) ?_ ?_) ?_
    · show V c main_v40 (((cfg1.win 0).blk t).view.emb (ix2 p k)) = _
      refine congrArg (V c main_v40) (funext fun a => Fin.ext ?_)
      match a with
      | ⟨0, _⟩ => show win1_0.index t (0 : Fin 2) * 2000 + 1 * p.val = win1_5.index t (0 : Fin 2) * 2000 + 1 * p.val; omega
      | ⟨1, _⟩ => show win1_0.index t (1 : Fin 2) * 128 + 1 * k.val = k.val; omega
    · show V c main_v41 (((cfg1.win 2).blk t).view.emb (ix2 (0 : Fin 1) k)) = _
      refine congrArg (V c main_v41) (funext fun a => Fin.ext ?_)
      match a with
      | ⟨0, _⟩ => show win1_2.index t (0 : Fin 2) * 1 + 1 * 0 = 0; omega
      | ⟨1, _⟩ => show win1_2.index t (1 : Fin 2) * 128 + 1 * k.val = k.val; omega
    · show V c main_arg0 (((cfg1.win 1).blk t).view.emb (ix2 p k)) = _
      refine congrArg (V c main_arg0) (funext fun a => Fin.ext ?_)
      match a with
      | ⟨0, _⟩ => show win1_1.index t (0 : Fin 2) * 2000 + 1 * p.val = win1_5.index t (0 : Fin 2) * 2000 + 1 * p.val; omega
      | ⟨1, _⟩ => show win1_1.index t (1 : Fin 2) * 128 + 1 * k.val = k.val; omega
  -- the scale and shift blocks are the scale and shift rows
  have hscale : (fun k : Fin 128 => scaleRow V c t (ix2 (0 : Fin 1) k)) = fun k => V c main_v42 (ix2 (0 : Fin 1) k) := by
    funext k
    show V c main_v42 (((cfg1.win 3).blk t).view.emb (ix2 (0 : Fin 1) k)) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have hshift : (fun k : Fin 128 => shiftRow V c t (ix2 (0 : Fin 1) k)) = fun k => V c main_v43 (ix2 (0 : Fin 1) k) := by
    funext k
    show V c main_v43 (((cfg1.win 4).blk t).view.emb (ix2 (0 : Fin 1) k)) = _
    refine congrArg (V c main_v43) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  -- the tile's column q is the array's column q
  have hcol : q = (((cfg1.win 5).blk t).view.emb (ix2 p q)) 1 :=
    Fin.ext (by show q.val = win1_5.index t (1 : Fin 2) * 128 + 1 * q.val; omega)
  rw [hrow, hscale, hshift]
  exact congrArg (Cert.Spec.lnRelu _ _ _) hcol

/-- An index of the result array lies in tile `t` exactly when each coordinate lies in the tile's range. -/
theorem mem_tile (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v44).slice (win1_5.rect t)).set ↔ _
  rw [View.set_slice_whole, Rect.mem_set_unit]
  exact Iff.rfl

/-- Row `r` of the result lies in tile `r / 2000`: the 50 tiles cover the array. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨a0, a1, x0, x1, b0, b1, g0, g1, s0, s1, o0, o1⟩ := index_facts t
  refine ⟨t, flush1_5 t, ?_⟩
  rw [mem_tile]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- After the region the result array is the whole layer of the arrays the region found. -/
theorem array_eq (c : Dev nD) :
    (dat1 V c).arrAt 5 cfg1.N
      = Cert.Spec.layer (V c main_v40) (V c main_arg0) (fun k => V c main_v41 (ix2 (0 : Fin 1) k))
          (fun k => V c main_v42 (ix2 (0 : Fin 1) k)) (fun k => V c main_v43 (ix2 (0 : Fin 1) k)) :=
  (dat1 V c).arrAt_eq_of_cover 5 _ (fun t _ => flushed_eq V c t) covered

end Cert.KernelIdeal.Region1

end
-- ==== Proof.ReferenceLayer.lean ====
/-
  The reference, read against the layer's mathematics.

  Its matrix product is the host's contraction of the features' columns with the weights' rows: entry `(r, q)` is the
  sum over `k` of `x (r, k) · w (k, q)`. Its tail adds the bias row and the features to the aggregated messages, takes
  each row's mean and variance as host sums (from an initial zero) divided by 128, and normalises, scales, shifts and
  rectifies entry by entry. Read at entry `(r, q)` through every broadcast this is `lnRelu` of row `r` at column `q`.
-/
import proofs.«128489_j40931038331316_1_alg».proof.Proof.Gen.ReferenceIdeal.Read
import proofs.«128489_j40931038331316_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The reference's product is the whole product `x · w`. -/
theorem product_eq (x0 : (⟨S100000x128, .f32⟩ : BufTy).Contents (Elt Ideal)) (x2 : (⟨S128x128, .f32⟩ : BufTy).Contents (Elt Ideal)) :
    val_main_v12 (F := Ideal) x0 x2 = Cert.Spec.xw x0 x2 := by
  funext i
  obtain ⟨r, q, rfl⟩ : ∃ (r : Fin 100000) (q : Fin 128), i = ix2 r q := ⟨i 0, i 1, eq_ix2 i⟩
  rw [val_main_v12_apply]
  unfold Cert.Spec.xw Cert.Spec.xwAt
  refine Finset.sum_congr rfl fun k _ => ?_
  refine congrArg₂ (· * ·) ?_ ?_
  · exact congrArg x0 (funext fun a => by match a with | ⟨0, _⟩ => rfl | ⟨1, _⟩ => rfl)
  · exact congrArg x2 (funext fun a => by match a with | ⟨0, _⟩ => rfl | ⟨1, _⟩ => rfl)

/-! ### The message passing, as one function of the product

Everything between the product and the tail — the endpoints with self loops appended, the degrees, their reciprocal
roots gathered at both endpoints, the products' rows gathered at the sources, scaled, and scatter-added at the
targets — uses the product only as the table the rows are gathered from. -/

/-- The aggregated messages, from the edge list `x1` and the table `xw` of rows to gather. -/
def aggregate (x1 : (⟨S2x1600000, .i32⟩ : BufTy).Contents (Elt Ideal)) (xw : FVec Ideal S100000x128 .f32) :
    FVec Ideal S100000x128 .f32 :=
  Host.scatterAdd (F := Ideal) scatter_S100000x128_S1700000x1_S1700000x128_1_0_0_1 (val_main_v38 (F := Ideal))
    (val_main_v39 (F := Ideal) x1)
    (mulf (F := Ideal) (Host.gather gather_S100000x128_S1700000x1_S1700000x128_1_0_n_n_0_1_1128 xw (val_main_v34 (F := Ideal) x1))
      (val_main_v36 (F := Ideal) x1))

/-- The reference's aggregated messages are that function of its product. -/
theorem messages_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v40 (F := Ideal) x0 x1 x2 = aggregate x1 (val_main_v12 (F := Ideal) x0 x2) := by
  unfold val_main_v40 val_main_v37 val_main_v35 aggregate
  rfl

/-! ### The composed index functions of the tail's broadcasts, at literal coordinates -/

theorem bias_idx (r : Fin 100000) (k : Fin 128) : idx_main_v41 (idx_main_v42 (ix2 r k)) = ix1 k :=
  funext fun a => by match a with | ⟨0, _⟩ => rfl
theorem scale_idx (r : Fin 100000) (k : Fin 128) : idx_main_v63 (idx_main_v64 (ix2 r k)) = ix1 k :=
  funext fun a => by match a with | ⟨0, _⟩ => rfl
theorem shift_idx (r : Fin 100000) (k : Fin 128) : idx_main_v66 (idx_main_v67 (ix2 r k)) = ix1 k :=
  funext fun a => by match a with | ⟨0, _⟩ => rfl
theorem sum1_idx (r : Fin 100000) (k : Fin 128) : idx_main_v45 (idx_main_v46 (ix2 r (0 : Fin 1))) k = ix2 r k :=
  funext fun a => by match a with | ⟨0, _⟩ => rfl | ⟨1, _⟩ => rfl
theorem sum2_idx (r : Fin 100000) (k : Fin 128) : idx_main_v52 (idx_main_v53 (ix2 r (0 : Fin 1))) k = ix2 r k :=
  funext fun a => by match a with | ⟨0, _⟩ => rfl | ⟨1, _⟩ => rfl
theorem col1_idx (r : Fin 100000) (q : Fin 128) : idx_main_v49 (ix2 r q) = ix2 r (0 : Fin 1) :=
  funext fun a => by match a with | ⟨0, _⟩ => rfl | ⟨1, _⟩ => rfl
theorem col2_idx (r : Fin 100000) (q : Fin 128) : idx_main_v56 (ix2 r q) = ix2 r (0 : Fin 1) :=
  funext fun a => by match a with | ⟨0, _⟩ => rfl | ⟨1, _⟩ => rfl
theorem col3_idx (r : Fin 100000) (q : Fin 128) : idx_main_v61 (ix2 r q) = ix2 r (0 : Fin 1) :=
  funext fun a => by match a with | ⟨0, _⟩ => rfl | ⟨1, _⟩ => rfl

section Tail

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))

/-- The row the reference normalises at node `r`. -/
abbrev row (r : Fin 100000) : Fin 128 → EReal :=
  Cert.Spec.preRow (val_main_v40 (F := Ideal) x0 x1 x2) x0 (fun k => x3 (ix1 k)) r

/-- Messages plus bias plus features, at `(r, k)`. -/
theorem pre_apply (r : Fin 100000) (k : Fin 128) :
    val_main_v44 (F := Ideal) x0 x1 x2 x3 (ix2 r k) = row x0 x1 x2 x3 r k := by
  rw [val_main_v44_apply, val_main_v43_apply, val_main_v42_apply, val_main_v41_apply, bias_idx]
  rfl

/-- The row's mean: the host sum from zero, over 128. -/
theorem mean_apply (r : Fin 100000) :
    val_main_v48 (F := Ideal) x0 x1 x2 x3 (ix2 r (0 : Fin 1)) = Cert.Spec.rowMean (row x0 x1 x2 x3 r) := by
  rw [val_main_v48_apply, val_main_v46_apply, val_main_v45_apply, val_main_v47_apply, val_main_cst_7_apply,
    val_main_cst_8_apply]
  unfold Cert.Spec.rowMean
  show Ideal.div (Ideal.ofBits .f32 0x00000000#32 + ∑ k : Fin 128,
      val_main_v44 (F := Ideal) x0 x1 x2 x3 (idx_main_v45 (idx_main_v46 (ix2 r (0 : Fin 1))) k)) Cert.Spec.c128 = _
  rw [Ideal.ofBits_zero_f32, zero_add]
  refine congrArg (Ideal.div · Cert.Spec.c128) (Finset.sum_congr rfl fun k _ => ?_)
  rw [sum1_idx]
  exact pre_apply x0 x1 x2 x3 r k

/-- The centred row, as the variance's squares read it. -/
theorem centred1_apply (r : Fin 100000) (k : Fin 128) :
    val_main_v50 (F := Ideal) x0 x1 x2 x3 (ix2 r k) = row x0 x1 x2 x3 r k - Cert.Spec.rowMean (row x0 x1 x2 x3 r) := by
  rw [val_main_v50_apply, val_main_v49_apply, col1_idx, mean_apply, pre_apply]
  rfl

/-- The centred row, as the normalised entry reads it. -/
theorem centred2_apply (r : Fin 100000) (k : Fin 128) :
    val_main_v57 (F := Ideal) x0 x1 x2 x3 (ix2 r k) = row x0 x1 x2 x3 r k - Cert.Spec.rowMean (row x0 x1 x2 x3 r) := by
  rw [val_main_v57_apply, val_main_v56_apply, col2_idx, mean_apply, pre_apply]
  rfl

/-- The row's variance: the host sum of the centred squares from zero, over 128. -/
theorem var_apply (r : Fin 100000) :
    val_main_v55 (F := Ideal) x0 x1 x2 x3 (ix2 r (0 : Fin 1)) = Cert.Spec.rowVar (row x0 x1 x2 x3 r) := by
  rw [val_main_v55_apply, val_main_v53_apply, val_main_v52_apply, val_main_v54_apply, val_main_cst_9_apply,
    val_main_cst_10_apply]
  unfold Cert.Spec.rowVar
  show Ideal.div (Ideal.ofBits .f32 0x00000000#32 + ∑ k : Fin 128,
      val_main_v51 (F := Ideal) x0 x1 x2 x3 (idx_main_v52 (idx_main_v53 (ix2 r (0 : Fin 1))) k)) Cert.Spec.c128 = _
  rw [Ideal.ofBits_zero_f32, zero_add]
  refine congrArg (Ideal.div · Cert.Spec.c128) (Finset.sum_congr rfl fun k _ => ?_)
  rw [sum2_idx, val_main_v51_apply, centred1_apply]
  rfl

/-- The reciprocal root of the variance plus the floor. -/
theorem rstd_apply (r : Fin 100000) :
    val_main_v60 (F := Ideal) x0 x1 x2 x3 (ix2 r (0 : Fin 1))
      = Ideal.rsqrt (Cert.Spec.rowVar (row x0 x1 x2 x3 r) + Cert.Spec.ceps) := by
  rw [val_main_v60_apply, val_main_v59_apply, val_main_v58_apply, val_main_cst_11_apply, var_apply]
  rfl

/-- The reference's result is the layer of its own aggregated messages, the features and the three parameter rows. -/
theorem result_eq :
    val_main_v69 (F := Ideal) x0 x1 x2 x3 x4 x5
      = Cert.Spec.layer (val_main_v40 (F := Ideal) x0 x1 x2) x0 (fun k => x3 (ix1 k)) (fun k => x4 (ix1 k)) (fun k => x5 (ix1 k)) := by
  funext i
  obtain ⟨r, q, rfl⟩ : ∃ (r : Fin 100000) (q : Fin 128), i = ix2 r q := ⟨i 0, i 1, eq_ix2 i⟩
  rw [val_main_v69_apply, val_main_v68_apply, val_main_v65_apply, val_main_v62_apply, val_main_v61_apply, col3_idx,
    rstd_apply, centred2_apply, val_main_v64_apply, val_main_v63_apply, scale_idx, val_main_v67_apply, val_main_v66_apply,
    shift_idx, val_main_call0_v0_apply, val_main_call0_cst_apply]
  rfl

end Tail

end Cert.ReferenceIdeal.RefValue

end
-- ==== Proof.HostChain.lean ====
/-
  From the launch memory to the result, on the kernel's side.

  Between and around the two regions @main runs host operations only. Read back through them:
  * the six argument arrays are never written, so every boundary finds them as launched;
  * the first region finds the features and the weights as launched, so it leaves their whole product;
  * the endpoints with self loops appended, and the reciprocal roots of the degrees, are computed before the first region
    from the edge list alone, and no region writes them;
  * the operations between the regions gather the product's rows at the sources, scale them and scatter-add them at
    the targets: the same operations, on the same edge list, as the reference applies to its own product — one
    function `aggregate` of the edge list and the table of rows;
  * the second region finds the aggregated messages, the features as launched, and the three parameter vectors
    reshaped to rows, and leaves the whole layer of them.
-/
import proofs.«128489_j40931038331316_1_alg».proof.Proof.Gen.KernelIdeal.Frame
import proofs.«128489_j40931038331316_1_alg».proof.Proof.MatmulRegion
import proofs.«128489_j40931038331316_1_alg».proof.Proof.LayerNormRegion
import proofs.«128489_j40931038331316_1_alg».proof.Proof.ReferenceLayer
import Idealize.ShloMosaic.Lib.StableHlo.Run
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.ShloMosaic.ValueIdx
open Idealize.ShloMosaic.StableHlo
open Idealize.SL.Sem
open Cert.ReferenceIdeal.Read (val_main_v3 val_main_v6 val_main_v11)
open Cert.ReferenceIdeal.RefValue (aggregate)

variable (m : (ℓ : Loc nD τ sig) → Buf (Elt Ideal) ℓ) (ρ : Dev nD → PrngReg)

/-! ### The arguments, at the first region's entry and exit -/

theorem entry_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem entry_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem entry_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem entry_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem entry_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem entry_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-- The features are an input window of the first region: it leaves them as it found them. -/
theorem exit_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (entry_arg0 m ρ c)
theorem exit_arg1 (c : Dev nD) : W2 m ρ c (Proc.devRef .tc main_arg1) = m ((c : Thread nD τ).loc main_arg1) :=
  (W2_of_ne m ρ c main_arg1 (by decide)).trans (entry_arg1 m ρ c)
theorem exit_arg3 (c : Dev nD) : W2 m ρ c (Proc.devRef .tc main_arg3) = m ((c : Thread nD τ).loc main_arg3) :=
  (W2_of_ne m ρ c main_arg3 (by decide)).trans (entry_arg3 m ρ c)
theorem exit_arg4 (c : Dev nD) : W2 m ρ c (Proc.devRef .tc main_arg4) = m ((c : Thread nD τ).loc main_arg4) :=
  (W2_of_ne m ρ c main_arg4 (by decide)).trans (entry_arg4 m ρ c)
theorem exit_arg5 (c : Dev nD) : W2 m ρ c (Proc.devRef .tc main_arg5) = m ((c : Thread nD τ).loc main_arg5) :=
  (W2_of_ne m ρ c main_arg5 (by decide)).trans (entry_arg5 m ρ c)

/-! ### The first region's result -/

/-- After the first region the product buffer holds the whole product of the launched features and weights. -/
theorem product (c : Dev nD) :
    W2 m ρ c (Proc.devRef .tc main_v12)
      = Cert.Spec.xw (m ((c : Thread nD τ).loc main_arg0)) (m ((c : Thread nD τ).loc main_arg2)) := by
  refine (W2_arr m ρ c 2).trans ?_
  rw [Region0.array_eq (V1 m ρ) c]
  show Cert.Spec.xw (W1 m ρ c (Proc.devRef .tc main_arg0)) (W1 m ρ c (Proc.devRef .tc main_arg2)) = _
  rw [entry_arg0, entry_arg2]

/-! ### What the host computed before the first region, from the edge list -/

/-- The sources with self loops appended. -/
theorem sources (c : Dev nD) :
    W2 m ρ c (Proc.devRef .tc main_v3) = val_main_v3 (F := Ideal) (m ((c : Thread nD τ).loc main_arg1)) := by
  refine (W2_of_ne m ρ c main_v3 (by decide)).trans ?_
  show StableHlo.after hostOps0 (W0 m ρ c) (Proc.devRef .tc main_v3) = _
  after_results
  unfold val_main_v3 Cert.ReferenceIdeal.Read.val_main_v2 Cert.ReferenceIdeal.Read.val_main_v1 Cert.ReferenceIdeal.Read.val_main_v0
  rfl

/-- The targets with self loops appended. -/
theorem targets (c : Dev nD) :
    W2 m ρ c (Proc.devRef .tc main_v6) = val_main_v6 (F := Ideal) (m ((c : Thread nD τ).loc main_arg1)) := by
  refine (W2_of_ne m ρ c main_v6 (by decide)).trans ?_
  show StableHlo.after hostOps0 (W0 m ρ c) (Proc.devRef .tc main_v6) = _
  after_results
  unfold val_main_v6 Cert.ReferenceIdeal.Read.val_main_v5 Cert.ReferenceIdeal.Read.val_main_v4 Cert.ReferenceIdeal.Read.val_main_v0
  rfl

/-- The reciprocal roots of the degrees. -/
theorem degree_roots (c : Dev nD) :
    W2 m ρ c (Proc.devRef .tc main_v11) = val_main_v11 (F := Ideal) (m ((c : Thread nD τ).loc main_arg1)) := by
  refine (W2_of_ne m ρ c main_v11 (by decide)).trans ?_
  show StableHlo.after hostOps0 (W0 m ρ c) (Proc.devRef .tc main_v11) = _
  after_results
  unfold val_main_v11 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst
    val_main_v6 Cert.ReferenceIdeal.Read.val_main_v5 Cert.ReferenceIdeal.Read.val_main_v4 Cert.ReferenceIdeal.Read.val_main_v0
  rfl

/-! ### Between the regions -/

/-- The aggregated messages the second region finds: the reference's own chain of gathers, scalings and the
    scatter-add, applied to the edge list as launched and to the first region's product. -/
theorem messages (c : Dev nD) :
    V3 m ρ c main_v40
      = aggregate (m ((c : Thread nD τ).loc main_arg1)) (W2 m ρ c (Proc.devRef .tc main_v12)) := by
  show StableHlo.after hostOps1 (W2 m ρ c) (Proc.devRef .tc main_v40) = _
  after_results_simp
  rw [sources, targets, degree_roots]
  unfold aggregate Cert.ReferenceIdeal.Read.val_main_v39 Cert.ReferenceIdeal.Read.val_main_v38 Cert.ReferenceIdeal.Read.val_main_cst_6 Cert.ReferenceIdeal.Read.val_main_v36 Cert.ReferenceIdeal.Read.val_main_v34 Cert.ReferenceIdeal.Read.val_main_v33
    Cert.ReferenceIdeal.Read.val_main_v32 Cert.ReferenceIdeal.Read.val_main_v31 Cert.ReferenceIdeal.Read.val_main_c_5 Cert.ReferenceIdeal.Read.val_main_v30 Cert.ReferenceIdeal.Read.val_main_v29 Cert.ReferenceIdeal.Read.val_main_c_4 Cert.ReferenceIdeal.Read.val_main_v28
    Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_c_3
    Cert.ReferenceIdeal.Read.val_main_v21 Cert.ReferenceIdeal.Read.val_main_v20 Cert.ReferenceIdeal.Read.val_main_c_2 Cert.ReferenceIdeal.Read.val_main_v19 Cert.ReferenceIdeal.Read.val_main_v18 Cert.ReferenceIdeal.Read.val_main_v17 Cert.ReferenceIdeal.Read.val_main_v16
    Cert.ReferenceIdeal.Read.val_main_v15 Cert.ReferenceIdeal.Read.val_main_c_1 Cert.ReferenceIdeal.Read.val_main_v14 Cert.ReferenceIdeal.Read.val_main_v13 Cert.ReferenceIdeal.Read.val_main_c
  rfl

/-- The second region finds the features as launched. -/
theorem features (c : Dev nD) : V3 m ρ c main_arg0 = m ((c : Thread nD τ).loc main_arg0) := by
  show StableHlo.after hostOps1 (W2 m ρ c) (Proc.devRef .tc main_arg0) = _
  after_results_simp
  exact exit_arg0 m ρ c

/-- The bias, reshaped to a row, read at column `k`. -/
theorem bias_row (c : Dev nD) :
    (fun k : Fin 128 => V3 m ρ c main_v41 (ix2 (0 : Fin 1) k)) = fun k => m ((c : Thread nD τ).loc main_arg3) (ix1 k) := by
  funext k
  show StableHlo.after hostOps1 (W2 m ρ c) (Proc.devRef .tc main_v41) (ix2 (0 : Fin 1) k) = _
  after_results_simp
  rw [exit_arg3]
  exact shapeCast_a_1a_apply (m ((c : Thread nD τ).loc main_arg3)) shapeCasts_S128_S1x128 0 k

/-- The scale, reshaped to a row, read at column `k`. -/
theorem scale_row (c : Dev nD) :
    (fun k : Fin 128 => V3 m ρ c main_v42 (ix2 (0 : Fin 1) k)) = fun k => m ((c : Thread nD τ).loc main_arg4) (ix1 k) := by
  funext k
  show StableHlo.after hostOps1 (W2 m ρ c) (Proc.devRef .tc main_v42) (ix2 (0 : Fin 1) k) = _
  after_results_simp
  rw [exit_arg4]
  exact shapeCast_a_1a_apply (m ((c : Thread nD τ).loc main_arg4)) shapeCasts_S128_S1x128 0 k

/-- The shift, reshaped to a row, read at column `k`. -/
theorem shift_row (c : Dev nD) :
    (fun k : Fin 128 => V3 m ρ c main_v43 (ix2 (0 : Fin 1) k)) = fun k => m ((c : Thread nD τ).loc main_arg5) (ix1 k) := by
  funext k
  show StableHlo.after hostOps1 (W2 m ρ c) (Proc.devRef .tc main_v43) (ix2 (0 : Fin 1) k) = _
  after_results_simp
  rw [exit_arg5]
  exact shapeCast_a_1a_apply (m ((c : Thread nD τ).loc main_arg5)) shapeCasts_S128_S1x128 0 k

/-! ### The result -/

/-- After @main the result buffer holds the layer of the aggregated messages of the launched edge list and the product
    of the launched features and weights, the launched features, and the three launched parameter vectors. -/
theorem result (c : Dev nD) :
    W4 m ρ c (Proc.devRef .tc main_v44)
      = Cert.Spec.layer
          (aggregate (m ((c : Thread nD τ).loc main_arg1))
            (Cert.Spec.xw (m ((c : Thread nD τ).loc main_arg0)) (m ((c : Thread nD τ).loc main_arg2))))
          (m ((c : Thread nD τ).loc main_arg0)) (fun k => m ((c : Thread nD τ).loc main_arg3) (ix1 k))
          (fun k => m ((c : Thread nD τ).loc main_arg4) (ix1 k)) (fun k => m ((c : Thread nD τ).loc main_arg5) (ix1 k)) := by
  refine (W4_arr m ρ c 5).trans ?_
  rw [Region1.array_eq (V3 m ρ) c, messages, features, bias_row, scale_row, shift_row, product]

end Cert.KernelIdeal.Chain

end
-- ==== Proof.lean ====
/-
  A graph-convolution layer with a residual, a row normalisation and a rectifier, in two forms.

  Both programs take node features `x : [100000, 128]`, an edge list `[2, 1600000]`, weights `W : [128, 128]` and three
  parameter vectors of length 128. Both append a self loop per node to the edges, count each node's incoming edges,
  take the reciprocal roots of the counts, gather the rows of `x · W` at the sources, scale each by the two endpoints'
  roots and add it into its target's row; to the sums they add the bias and the node's own features, normalise each
  row by its mean and variance (with a floor ε under the root), scale, shift and rectify.

  The kernel computes `x · W` and the residual-normalise-rectify tail on tiles of 2000 rows; the reference computes
  them on the whole arrays. Over the extended reals the two agree exactly:
  * narrowing the product's operands to bf16 changes nothing, and a tile's product entries are the whole product's;
  * everything between the product and the tail is the same operations on the same edge list in both programs, so it
    is carried as one function of the product and never opened;
  * a row's lane sum and the host's sum from zero are the same sum, the two divisions by 128 and the two reciprocal
    roots are the same functions, and every literal is the same word on both sides.
  No step uses a law that fails at the infinities, so the finiteness of the inputs is not used.

  The three runs are the generated frames (the kernel's at both readings) and the reference's generated run; the
  kernel's run is read once more with its result named. Nothing was rewritten by the idealisation.
-/
import proofs.«128489_j40931038331316_1_alg».proof.Defs
import proofs.«128489_j40931038331316_1_alg».proof.Proof.Gen.Kernel
import proofs.«128489_j40931038331316_1_alg».proof.Proof.Gen.Kernel.Frame
import proofs.«128489_j40931038331316_1_alg».proof.Proof.Gen.KernelIdeal
import proofs.«128489_j40931038331316_1_alg».proof.Proof.Gen.KernelIdeal.Frame
import proofs.«128489_j40931038331316_1_alg».proof.Proof.Gen.ReferenceIdeal
import proofs.«128489_j40931038331316_1_alg».proof.Proof.Gen.ReferenceIdeal.Run
import proofs.«128489_j40931038331316_1_alg».proof.Proof.Gen.ReferenceIdeal.Read
import proofs.«128489_j40931038331316_1_alg».proof.Proof.Gen.Pre_finite_inputs
import proofs.«128489_j40931038331316_1_alg».proof.Proof.KernelRun
import proofs.«128489_j40931038331316_1_alg».proof.Proof.HostChain
import proofs.«128489_j40931038331316_1_alg».proof.Proof.ReferenceLayer
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the same result: the layer of the aggregated
    messages of the edge list and the whole product, the features and the three parameter vectors. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.result m ρ c), (h c).2⟩) (Cert.KernelIdeal.Run.run_value m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, Cert.ReferenceIdeal.RefValue.result_eq,
    Cert.ReferenceIdeal.RefValue.messages_eq, Cert.ReferenceIdeal.RefValue.product_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
